-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S400000 : Shape := ⟨1, ![400000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg9 : FVec F S128x384 .f32) (main_arg10 : FVec F S384 .f32) (main_v33 : IVec S_ 1) : IVec S_ 1 :=
  let main_v34 : FVec F S128x384 .f32 := Host.absf main_arg9
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg10
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x384 .f32) (main_arg9 : FVec F S128x384 .f32) (main_arg10 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x384 .f32 := Host.absf main_arg8
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg9 main_arg10 main_v33

def fn {F : FTy → Type} [FloatOps F] (main_arg0 : FVec F S400000x128 .f32) (main_arg1 : FVec F S400000x128 .f32) (main_arg2 : FVec F S400000x128 .f32) (main_arg3 : IVec S400000 32) (main_arg4 : IVec S400000 32) (main_arg5 : FVec F S128x128 .f32) (main_arg6 : FVec F S128x128 .f32) (main_arg7 : FVec F S128 .f32) (main_arg8 : FVec F S128x384 .f32) (main_arg9 : FVec F S128x384 .f32) (main_arg10 : FVec F S384 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S400000x128 : Shape := ⟨2, ![400000, 128]⟩
abbrev S400000 : Shape := ⟨1, ![400000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S_ : Shape := ⟨0, ![]⟩
abbrev S400000x1 : Shape := ⟨2, ![400000, 1]⟩
abbrev S1x128 : Shape := ⟨2, ![1, 128]⟩
abbrev S1x384 : Shape := ⟨2, ![1, 384]⟩
abbrev S400000x256 : Shape := ⟨2, ![400000, 256]⟩
abbrev S2000x128 : Shape := ⟨2, ![2000, 128]⟩
abbrev S2000x256 : Shape := ⟨2, ![2000, 256]⟩
abbrev S2000x384 : Shape := ⟨2, ![2000, 384]⟩

abbrev nBuf : Space → Nat
  | .hbm => 40
  | .vmem => 14
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S400000, .i32⟩
  | .hbm, ⟨4, _⟩ => ⟨S400000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x384, .f32⟩
  | .hbm, ⟨9, _⟩ => ⟨S128x384, .f32⟩
  | .hbm, ⟨10, _⟩ => ⟨S384, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x128, .f32⟩
  | .hbm, ⟨20, _⟩ => ⟨S_, .f32⟩
  | .hbm, ⟨21, _⟩ => ⟨S400000x128, .f32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S_, .f32⟩
  | .hbm, ⟨34, _⟩ => ⟨S400000x128, .f32⟩
  | .hbm, ⟨35, _⟩ => ⟨S400000x1, .i32⟩
  | .hbm, ⟨36, _⟩ => ⟨S400000x128, .f32⟩
  | .hbm, ⟨37, _⟩ => ⟨S1x128, .f32⟩
  | .hbm, ⟨38, _⟩ => ⟨S1x384, .f32⟩
  | .hbm, ⟨39, _⟩ => ⟨S400000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x384, .f32⟩
  | .local _ .vmem, ⟨10, _⟩ => ⟨S128x384, .f32⟩
  | .local _ .vmem, ⟨11, _⟩ => ⟨S1x384, .f32⟩
  | .local _ .vmem, ⟨12, _⟩ => ⟨S2000x256, .f32⟩
  | .local _ .vmem, ⟨13, _⟩ => ⟨S2000x256, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x128 : S_.BroadcastsInDim S400000x128 (![] : Fin 0 → Fin S400000x128.rank)
  shapeCasts_S128_S1x128 : S128.ShapeCasts S1x128
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x128_S2000x128 : S1x128.Broadcasts S2000x128
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  concatenates_S2000x128_S2000x128_S2000x256_d1 : Shape.Concatenates [S2000x128, S2000x128] S2000x256 1
  inb_S2000x256_S2000x256_0_0 : ∀ a, (![0, 0] : Fin 2 → Nat) a + S2000x256.size a ≤ S2000x256.size a
  h_S2000x256 : 0 < S2000x256.numel
  gather_S400000x128_S400000x1_S400000x128_1_0_n_n_0_1_1128_wf : GatherDims.WF S400000x128 S400000x1 S400000x128 [1] [0] [] [0] [] 1 ![1, 128]
  scatter_S400000x128_S400000x1_S400000x128_1_0_0_1_wf : ScatterDims.WF S400000x128 S400000x1 S400000x128 [1] [0] [0] 1
  dot_S2000x128_S128x128_S2000x128_1_0_0_1_n_n_wf : DotDims.WF S2000x128 S128x128 S2000x128 [1] [0] [0] [1] [] []
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S400000x128.size a
  hwx0_0 : ∀ i : grid0.Coords, EltTy.bits .f32 = 32 ∨ (Rect.block (s := S400000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S400000x128.size a
  hwx0_1 : ∀ i : grid0.Coords, EltTy.bits .f32 = 32 ∨ (Rect.block (s := S400000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S400000x128.size a
  hwx0_2 : ∀ i : grid0.Coords, EltTy.bits .f32 = 32 ∨ (Rect.block (s := S400000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .f32 = 32 ∨ (Rect.block (s := S128x384) S128x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S400000x256.size a
  hwx0_9 : ∀ i : grid0.Coords, EltTy.bits .f32 = 32 ∨ (Rect.block (s := S400000x256) S2000x256.size (cc0_transform_9 i) (hinb0_9 i)).WholeWords (EltTy.packing .f32)

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def scatter_S400000x128_S400000x1_S400000x128_1_0_0_1 : ScatterDims S400000x128 S400000x1 S400000x128 where
  updateWindowDims := [1]
  insertedWindowDims := [0]
  scatterDimsToOperandDims := [0]
  indexVectorDim := 1
  wf := scatter_S400000x128_S400000x1_S400000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S400000x128 : Shape := ⟨2, ![400000, 128]⟩
abbrev S400000 : Shape := ⟨1, ![400000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S_ : Shape := ⟨0, ![]⟩
abbrev S400000x1 : Shape := ⟨2, ![400000, 1]⟩
abbrev S1x128 : Shape := ⟨2, ![1, 128]⟩
abbrev S400000x384 : Shape := ⟨2, ![400000, 384]⟩
abbrev S1x384 : Shape := ⟨2, ![1, 384]⟩
abbrev S400000x256 : Shape := ⟨2, ![400000, 256]⟩

abbrev nBuf : Space → Nat
  | .hbm => 83
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S400000, .i32⟩
  | .hbm, ⟨4, _⟩ => ⟨S400000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x384, .f32⟩
  | .hbm, ⟨9, _⟩ => ⟨S128x384, .f32⟩
  | .hbm, ⟨10, _⟩ => ⟨S384, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x128, .f32⟩
  | .hbm, ⟨20, _⟩ => ⟨S_, .f32⟩
  | .hbm, ⟨21, _⟩ => ⟨S400000x128, .f32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S_, .f32⟩
  | .hbm, ⟨34, _⟩ => ⟨S400000x128, .f32⟩
  | .hbm, ⟨35, _⟩ => ⟨S400000x1, .i32⟩
  | .hbm, ⟨36, _⟩ => ⟨S400000x128, .f32⟩
  | .hbm, ⟨37, _⟩ => ⟨S400000x128, .f32⟩
  | .hbm, ⟨38, _⟩ => ⟨S400000x128, .f32⟩
  | .hbm, ⟨39, _⟩ => ⟨S400000x128, .f32⟩
  | .hbm, ⟨40, _⟩ => ⟨S1x128, .f32⟩
  | .hbm, ⟨41, _⟩ => ⟨S400000x128, .f32⟩
  | .hbm, ⟨42, _⟩ => ⟨S400000x128, .f32⟩
  | .hbm, ⟨43, _⟩ => ⟨S400000x128, .f32⟩
  | .hbm, ⟨44, _⟩ => ⟨S400000x128, .f32⟩
  | .hbm, ⟨45, _⟩ => ⟨S_, .f32⟩
  | .hbm, ⟨46, _⟩ => ⟨S400000x128, .f32⟩
  | .hbm, ⟨47, _⟩ => ⟨S400000x128, .f32⟩
  | .hbm, ⟨48, _⟩ => ⟨S_, .f32⟩
  | .hbm, ⟨49, _⟩ => ⟨S400000x128, .f32⟩
  | .hbm, ⟨50, _⟩ => ⟨S400000x128, .f32⟩
  | .hbm, ⟨51, _⟩ => ⟨S400000x384, .f32⟩
  | .hbm, ⟨52, _⟩ => ⟨S400000x384, .f32⟩
  | .hbm, ⟨53, _⟩ => ⟨S400000x384, .f32⟩
  | .hbm, ⟨54, _⟩ => ⟨S1x384, .f32⟩
  | .hbm, ⟨55, _⟩ => ⟨S400000x384, .f32⟩
  | .hbm, ⟨56, _⟩ => ⟨S400000x384, .f32⟩
  | .hbm, ⟨57, _⟩ => ⟨S400000x128, .f32⟩
  | .hbm, ⟨58, _⟩ => ⟨S400000x128, .f32⟩
  | .hbm, ⟨59, _⟩ => ⟨S400000x128, .f32⟩
  | .hbm, ⟨60, _⟩ => ⟨S400000x128, .f32⟩
  | .hbm, ⟨61, _⟩ => ⟨S400000x128, .f32⟩
  | .hbm, ⟨62, _⟩ => ⟨S400000x128, .f32⟩
  | .hbm, ⟨63, _⟩ => ⟨S_, .f32⟩
  | .hbm, ⟨64, _⟩ => ⟨S400000x128, .f32⟩
  | .hbm, ⟨65, _⟩ => ⟨S400000x128, .f32⟩
  | .hbm, ⟨66, _⟩ => ⟨S_, .f32⟩
  | .hbm, ⟨67, _⟩ => ⟨S400000x128, .f32⟩
  | .hbm, ⟨68, _⟩ => ⟨S400000x128, .f32⟩
  | .hbm, ⟨69, _⟩ => ⟨S400000x128, .f32⟩
  | .hbm, ⟨70, _⟩ => ⟨S400000x128, .f32⟩
  | .hbm, ⟨71, _⟩ => ⟨S400000x128, .f32⟩
  | .hbm, ⟨72, _⟩ => ⟨S400000x128, .f32⟩
  | .hbm, ⟨73, _⟩ => ⟨S400000x128, .f32⟩
  | .hbm, ⟨74, _⟩ => ⟨S_, .f32⟩
  | .hbm, ⟨75, _⟩ => ⟨S400000x128, .f32⟩
  | .hbm, ⟨76, _⟩ => ⟨S400000x128, .f32⟩
  | .hbm, ⟨77, _⟩ => ⟨S_, .f32⟩
  | .hbm, ⟨78, _⟩ => ⟨S400000x128, .f32⟩
  | .hbm, ⟨79, _⟩ => ⟨S400000x128, .f32⟩
  | .hbm, ⟨80, _⟩ => ⟨S400000x128, .f32⟩
  | .hbm, ⟨81, _⟩ => ⟨S400000x128, .f32⟩
  | .hbm, ⟨82, _⟩ => ⟨S400000x256, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x128 : S_.BroadcastsInDim S400000x128 (![] : Fin 0 → Fin S400000x128.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  concatenates_S400000x128_S400000x128_S400000x256_d1 : Shape.Concatenates [S400000x128, S400000x128] S400000x256 1
  gather_S400000x128_S400000x1_S400000x128_1_0_n_n_0_1_1128_wf : GatherDims.WF S400000x128 S400000x1 S400000x128 [1] [0] [] [0] [] 1 ![1, 128]
  scatter_S400000x128_S400000x1_S400000x128_1_0_0_1_wf : ScatterDims.WF S400000x128 S400000x1 S400000x128 [1] [0] [0] 1
  dot_S400000x128_S128x128_S400000x128_1_0_0_1_n_n_wf : DotDims.WF S400000x128 S128x128 S400000x128 [1] [0] [0] [1] [] []
  dot_S400000x128_S128x384_S400000x384_1_0_0_1_n_n_wf : DotDims.WF S400000x128 S128x384 S400000x384 [1] [0] [0] [1] [] []

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def scatter_S400000x128_S400000x1_S400000x128_1_0_0_1 : ScatterDims S400000x128 S400000x1 S400000x128 where
  updateWindowDims := [1]
  insertedWindowDims := [0]
  scatterDimsToOperandDims := [0]
  indexVectorDim := 1
  wf := scatter_S400000x128_S400000x1_S400000x128_1_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.CellSpec.lean ====
/-
  The Child-Sum Tree-LSTM cell, one node (one row) at a time, over the extended reals.

  For a node with input row `xr`, mailbox sums `hr` (children's hidden states) and `cr` (children's cell states):
    forget gate   f = σ (xr·W_f + hr·U_f + b_f)                                  (128 lanes)
    gates         (i | o | u) = xr·W_iou + hr·U_iou + b_iou                       (3 × 128 lanes, in that order)
    new cell      c' = σ i · tanh u + f · cr
    new hidden    h' = σ o · tanh c'
  and the result row is `h'` followed by `c'` (256 lanes). Every row of the result depends on the same row of the three
  row-indexed operands only, so the whole computation is this row function applied row by row; a tiling of the rows
  changes nothing. Sums over the contracted axis are sums in the commutative monoid of extended reals.
-/
import Idealize.ShloMosaic.PureOps.Ideal
import Idealize.ShloMosaic.Lib.ValueIdx

noncomputable section

open scoped BigOperators
open Idealize.ShloMosaic Idealize.ShloMosaic.ValueIdx

namespace Cert.TreeCell

/-- A weight matrix [128, n] of extended reals. -/
abbrev Mat (n : Nat) : Type := (⟨2, ![128, n]⟩ : Shape).Idx → EReal

/-- Lane `j` of `xr·W + hr·U + b`: the two contractions over the 128 input lanes, added, then the bias. -/
def lin {n : Nat} (xr hr : Fin 128 → EReal) (W U : Mat n) (b : Fin n → EReal) (j : Fin n) : EReal :=
  (∑ k : Fin 128, xr k * W (ix2 k j) + ∑ k : Fin 128, hr k * U (ix2 k j)) + b j

/-- Lane `j` of the new cell state: `σ i · tanh u + σ f_lin · cr`, the input gate at lane `j` of the joint gates and the
    update gate at lane `j + 256`. -/
def cNew (xr hr cr : Fin 128 → EReal) (Wf Uf : Mat 128) (bf : Fin 128 → EReal) (Wg Ug : Mat 384) (bg : Fin 384 → EReal)
    (j : Fin 128) : EReal :=
  Ideal.logistic (lin xr hr Wg Ug bg ⟨j.val, by omega⟩) * Ideal.tanh (lin xr hr Wg Ug bg ⟨j.val + 256, by omega⟩)
    + Ideal.logistic (lin xr hr Wf Uf bf j) * cr j

/-- Lane `j` of the new hidden state: `σ o · tanh c'`, the output gate at lane `j + 128` of the joint gates. -/
def hNew (xr hr cr : Fin 128 → EReal) (Wf Uf : Mat 128) (bf : Fin 128 → EReal) (Wg Ug : Mat 384) (bg : Fin 384 → EReal)
    (j : Fin 128) : EReal :=
  Ideal.logistic (lin xr hr Wg Ug bg ⟨j.val + 128, by omega⟩) * Ideal.tanh (cNew xr hr cr Wf Uf bf Wg Ug bg j)

/-- The result row: lanes 0–127 the new hidden state, lanes 128–255 the new cell state. -/
def cellRow (xr hr cr : Fin 128 → EReal) (Wf Uf : Mat 128) (bf : Fin 128 → EReal) (Wg Ug : Mat 384) (bg : Fin 384 → EReal)
    (o : Fin 256) : EReal :=
  if o.val < 128 then hNew xr hr cr Wf Uf bf Wg Ug bg ⟨o.val % 128, Nat.mod_lt _ (by omega)⟩
  else cNew xr hr cr Wf Uf bf Wg Ug bg ⟨o.val % 128, Nat.mod_lt _ (by omega)⟩

/-- The row function respects equality of each operand. -/
theorem cellRow_congr {xr xr' hr hr' cr cr' : Fin 128 → EReal} {Wf Wf' Uf Uf' : Mat 128} {bf bf' : Fin 128 → EReal}
    {Wg Wg' Ug Ug' : Mat 384} {bg bg' : Fin 384 → EReal} {o o' : Fin 256}
    (e1 : xr = xr') (e2 : hr = hr') (e3 : cr = cr') (e4 : Wf = Wf') (e5 : Uf = Uf') (e6 : bf = bf')
    (e7 : Wg = Wg') (e8 : Ug = Ug') (e9 : bg = bg') (e10 : o = o') :
    cellRow xr hr cr Wf Uf bf Wg Ug bg o = cellRow xr' hr' cr' Wf' Uf' bf' Wg' Ug' bg' o' := by
  subst e1 e2 e3 e4 e5 e6 e7 e8 e9 e10; rfl

end Cert.TreeCell

end
-- ==== Proof.KernelRow.lean ====
/-
  One entry of the block the kernel body leaves, as the cell's row function.

  The body contracts the point's 2000 rows of `x` and of the hidden mailbox with the four weight matrices (each product
  accumulated into zero, so each entry is the plain sum over the 128 contracted lanes; narrowing an operand to bf16 is the
  identity on extended reals), adds the biases broadcast down the rows, slices the joint gates into their three groups of
  128 lanes, applies the gate nonlinearities lane by lane and lays the new hidden state beside the new cell state. Entry
  `(p, o)` of that block therefore reads row `p` of the three row-indexed operands and nothing else: it is `cellRow` of
  those rows at lane `o`.
-/
import proofs.«116488_j24730421691110_1_alg».proof.Proof.Gen.KernelIdeal.Value
import proofs.«116488_j24730421691110_1_alg».proof.Proof.LibPlainMatmul
import proofs.«116488_j24730421691110_1_alg».proof.Proof.CellSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Row

open Cert.KernelIdeal Cert.KernelIdeal.Gen Cert.TreeCell

/-! ## The two contraction records: left rows kept, left lane 1 against right row 0, right columns kept -/

theorem sq_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem sq_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem sq_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem sq_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem wide_l0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem wide_l1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem wide_r0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem wide_r1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- A product with a square weight matrix, accumulated into zero, at `(p, o)`: the sum over the contracted lane. -/
theorem mm_sq (A : FVec Ideal S2000x128 .bf16) (B : FVec Ideal S128x128 .bf16) (p : Fin 2000) (o : Fin 128) :
    matmul dot_S2000x128_S128x128_S2000x128_1_0_0_1_n_n none A B (constant (F := Ideal) S2000x128 .f32 0x00000000#32) (ix2 p o)
      = ∑ k : Fin 128, A (ix2 p k) * B (ix2 k o) :=
  Cert.LibPlainMatmul.matmul_zero_apply dot_S2000x128_S128x128_S2000x128_1_0_0_1_n_n none rfl rfl sq_l0 sq_l1 sq_r0 sq_r1 A B p o

/-- The same for the joint-gate weights, 384 columns. -/
theorem mm_wide (A : FVec Ideal S2000x128 .bf16) (B : FVec Ideal S128x384 .bf16) (p : Fin 2000) (o : Fin 384) :
    matmul dot_S2000x128_S128x384_S2000x384_1_0_0_1_n_n none A B (constant (F := Ideal) S2000x384 .f32 0x00000000#32) (ix2 p o)
      = ∑ k : Fin 128, A (ix2 p k) * B (ix2 k o) :=
  Cert.LibPlainMatmul.matmul_zero_apply dot_S2000x128_S128x384_S2000x384_1_0_0_1_n_n none rfl rfl wide_l0 wide_l1 wide_r0 wide_r1 A B p o

/-- A one-row bias broadcast down the 2000 rows, at `(p, j)`, is the bias at lane `j`. -/
theorem bias_sq (b : Vec Ideal S1x128 .f32) (p : Fin 2000) (j : Fin 128) :
    broadcastTo S2000x128 (shapeCast S1x128 b shapeCasts_S1x128_S1x128) broadcasts_S1x128_S2000x128 (ix2 p j) = b (ix2 0 j) := by
  rw [shapeCast_self]
  exact broadcastTo_apply b broadcasts_S1x128_S2000x128 (ix2 p j) (ix2 0 j) (fun a => match a with
    | ⟨0, _⟩ => by show (0 : Nat) = if (1 : Nat) = 1 then 0 else p.val; rw [if_pos rfl]
    | ⟨1, _⟩ => by show j.val = if (128 : Nat) = 1 then 0 else j.val; rw [if_neg (by decide)])

theorem bias_wide (b : Vec Ideal S1x384 .f32) (p : Fin 2000) (q : Fin 384) :
    broadcastTo S2000x384 (shapeCast S1x384 b shapeCasts_S1x384_S1x384) broadcasts_S1x384_S2000x384 (ix2 p q) = b (ix2 0 q) := by
  rw [shapeCast_self]
  exact broadcastTo_apply b broadcasts_S1x384_S2000x384 (ix2 p q) (ix2 0 q) (fun a => match a with
    | ⟨0, _⟩ => by show (0 : Nat) = if (1 : Nat) = 1 then 0 else p.val; rw [if_pos rfl]
    | ⟨1, _⟩ => by show q.val = if (384 : Nat) = 1 then 0 else q.val; rw [if_neg (by decide)])

/-- The hidden mailbox block as the second products' left operand: a cast to its own shape, then narrowed; both the
    identity on extended reals. -/
theorem mailbox_operand (P1 : Vec Ideal S2000x128 .f32) (i : S2000x128.Idx) : k0_pay3 (F := Ideal) P1 i = P1 i :=
  congrFun (shapeCast_self P1 shapeCasts_S2000x128_S2000x128) i

/-- The joint gates before the nonlinearities, at `(p, q)`: `lin` of row `p`. -/
theorem gates_apply (P0 P1 : Vec Ideal S2000x128 .f32) (P2 P3 : Vec Ideal S128x384 .f32) (P4 : Vec Ideal S1x384 .f32)
    (p : Fin 2000) (q : Fin 384) :
    k0_pay4 (F := Ideal) P0 P1 P2 P3 P4 (ix2 p q)
      = lin (fun k => P0 (ix2 p k)) (fun k => P1 (ix2 p k)) P2 P3 (fun q => P4 (ix2 0 q)) q := by
  unfold k0_pay4 lin
  exact congrArg₂ (· + ·) (congrArg₂ (· + ·) (mm_wide _ _ p q)
    ((mm_wide _ _ p q).trans (Finset.sum_congr rfl fun k _ => congrArg (· * P3 (ix2 k q)) (mailbox_operand P1 (ix2 p k))))) (bias_wide P4 p q)

/-- The forget gate times the cell mailbox, at `(p, j)`. -/
theorem forget_apply (P0 P1 P5 : Vec Ideal S2000x128 .f32) (P6 P7 : Vec Ideal S128x128 .f32) (P8 : Vec Ideal S1x128 .f32)
    (p : Fin 2000) (j : Fin 128) :
    k0_pay6 (F := Ideal) P0 P1 P5 P6 P7 P8 (ix2 p j)
      = Ideal.logistic (lin (fun k => P0 (ix2 p k)) (fun k => P1 (ix2 p k)) P6 P7 (fun j => P8 (ix2 0 j)) j) * P5 (ix2 p j) := by
  unfold k0_pay6 lin
  refine congrArg₂ (· * ·) (congrArg Ideal.logistic ?_) (congrFun (shapeCast_self P5 shapeCasts_S2000x128_S2000x128) (ix2 p j))
  exact congrArg₂ (· + ·) (congrArg₂ (· + ·) (mm_sq _ _ p j)
    ((mm_sq _ _ p j).trans (Finset.sum_congr rfl fun k _ => congrArg (· * P7 (ix2 k j)) (mailbox_operand P1 (ix2 p k))))) (bias_sq P8 p j)

/-- A slice of 128 lanes of the joint gates starting at lane `off`, at `(p, j)`, is the joint gates at `(p, j + off)`. -/
theorem slice_apply (off : Nat) (hoff : off + 128 ≤ 384) (v : FVec Ideal S2000x384 .f32) (h : S2000x384.Slices ![0, off] S2000x128)
    (p : Fin 2000) (j : Fin 128) :
    extractStridedSlice S2000x128 ![0, off] v h (ix2 p j) = v (ix2 p ⟨j.val + off, by omega⟩) :=
  extractStridedSlice_apply ![0, off] v h (ix2 p j) (ix2 p ⟨j.val + off, by omega⟩) (fun a => match a with
    | ⟨0, _⟩ => by show p.val = 0 + p.val; omega
    | ⟨1, _⟩ => by show j.val + off = off + j.val; omega)

section
variable (P0 P1 : Vec Ideal S2000x128 .f32) (P2 P3 : Vec Ideal S128x384 .f32) (P4 : Vec Ideal S1x384 .f32)
  (P5 : Vec Ideal S2000x128 .f32) (P6 P7 : Vec Ideal S128x128 .f32) (P8 : Vec Ideal S1x128 .f32)

/-- The new cell state the body computes, at `(p, j)`. -/
theorem cell_apply (p : Fin 2000) (j : Fin 128) :
    addf (mulf (logistic (extractStridedSlice S2000x128 ![0, 0] (k0_pay4 (F := Ideal) P0 P1 P2 P3 P4) slices_S2000x384_o0_0_S2000x128))
        (tanh (extractStridedSlice S2000x128 ![0, 256] (k0_pay4 (F := Ideal) P0 P1 P2 P3 P4) slices_S2000x384_o0_256_S2000x128)))
      (k0_pay6 (F := Ideal) P0 P1 P5 P6 P7 P8) (ix2 p j)
      = cNew (fun k => P0 (ix2 p k)) (fun k => P1 (ix2 p k)) (fun j => P5 (ix2 p j)) P6 P7 (fun j => P8 (ix2 0 j)) P2 P3 (fun q => P4 (ix2 0 q)) j := by
  unfold cNew
  exact congrArg₂ (· + ·)
    (congrArg₂ (· * ·)
      (congrArg Ideal.logistic ((slice_apply 0 (by omega) _ _ p j).trans (gates_apply P0 P1 P2 P3 P4 p _)))
      (congrArg Ideal.tanh ((slice_apply 256 (by omega) _ _ p j).trans (gates_apply P0 P1 P2 P3 P4 p _))))
    (forget_apply P0 P1 P5 P6 P7 P8 p j)

/-- The new hidden state the body computes, at `(p, j)`. -/
theorem hidden_apply (p : Fin 2000) (j : Fin 128) :
    mulf (logistic (extractStridedSlice S2000x128 ![0, 128] (k0_pay4 (F := Ideal) P0 P1 P2 P3 P4) slices_S2000x384_o0_128_S2000x128))
      (tanh (addf (mulf (logistic (extractStridedSlice S2000x128 ![0, 0] (k0_pay4 (F := Ideal) P0 P1 P2 P3 P4) slices_S2000x384_o0_0_S2000x128))
          (tanh (extractStridedSlice S2000x128 ![0, 256] (k0_pay4 (F := Ideal) P0 P1 P2 P3 P4) slices_S2000x384_o0_256_S2000x128)))
        (k0_pay6 (F := Ideal) P0 P1 P5 P6 P7 P8))) (ix2 p j)
      = hNew (fun k => P0 (ix2 p k)) (fun k => P1 (ix2 p k)) (fun j => P5 (ix2 p j)) P6 P7 (fun j => P8 (ix2 0 j)) P2 P3 (fun q => P4 (ix2 0 q)) j := by
  unfold hNew
  exact congrArg₂ (· * ·)
    (congrArg Ideal.logistic ((slice_apply 128 (by omega) _ _ p j).trans (gates_apply P0 P1 P2 P3 P4 p _)))
    (congrArg Ideal.tanh (cell_apply P0 P1 P2 P3 P4 P5 P6 P7 P8 p j))

/-- ENTRY `y` OF THE BLOCK the body leaves is the cell's row function of row `y 0` of the three row-indexed operands, at
    lane `y 1`: lanes below 128 come from the first operand of the concatenation (the new hidden state), the others from
    the second (the new cell state), each at lane `y 1 mod 128`. -/
theorem block_entry (y : S2000x256.Idx) :
    Cert.KernelIdeal.Value.E9 (F := Ideal) P0 P1 P2 P3 P4 P5 P6 P7 P8 y
      = cellRow (fun k => P0 (ix2 (y 0) k)) (fun k => P1 (ix2 (y 0) k)) (fun j => P5 (ix2 (y 0) j)) P6 P7 (fun j => P8 (ix2 0 j))
          P2 P3 (fun q => P4 (ix2 0 q)) (y 1) := by
  have h1 : (y 1).val < 256 := (y 1).isLt
  have hix : Cert.KernelIdeal.Value.ix9_0 y = ix2 (y 0) ⟨(y 1).val % 128, Nat.mod_lt _ (by omega)⟩ :=
    funext fun a => match a with
      | ⟨0, _⟩ => rfl
      | ⟨1, _⟩ => rfl
  show Cert.KernelIdeal.Value.Cat9_0 (F := Ideal) P0 P1 P2 P3 P4 P5 P6 P7 P8 (Cert.KernelIdeal.Value.csel9_0 y) (Cert.KernelIdeal.Value.ix9_0 y) = _
  rw [hix]
  unfold cellRow
  by_cases hlt : (y 1).val < 128
  · have hsel : Cert.KernelIdeal.Value.csel9_0 y = (0 : Fin 2) := Fin.ext (by show (y 1).val / 128 = 0; omega)
    rw [hsel, if_pos hlt]
    exact hidden_apply P0 P1 P2 P3 P4 P5 P6 P7 P8 (y 0) _
  · have hsel : Cert.KernelIdeal.Value.csel9_0 y = (1 : Fin 2) := Fin.ext (by show (y 1).val / 128 = 1; omega)
    rw [hsel, if_neg hlt]
    exact cell_apply P0 P1 P2 P3 P4 P5 P6 P7 P8 (y 0) _

end

end Cert.KernelIdeal.Row

end
-- ==== Proof.KernelArray.lean ====
/-
  From the blocks to the whole result array.

  The grid has 200 points; point `t` stages rows `2000·t … 2000·t + 1999` of `x` and of the two mailbox sums, the whole
  of every weight matrix and bias, and writes back rows `2000·t … 2000·t + 1999` of the result, all 256 lanes. Since an
  entry of the block depends only on its own row of the row-indexed operands (KernelRow), what point `t` writes back is
  block `t` of ONE array: the cell's row function applied to every row of the arrays as the kernel region finds them.
  The 200 blocks tile the 400000 rows (row `r` lies in the block of point `r / 2000`), so after the run the result
  array is that array.
-/
import proofs.«116488_j24730421691110_1_alg».proof.Proof.Gen.KernelIdeal.Value
import proofs.«116488_j24730421691110_1_alg».proof.Proof.KernelRow
import proofs.«116488_j24730421691110_1_alg».proof.Proof.CellSpec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.TreeCell Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays as the kernel region finds them, at their literal types -/

abbrev xArr (c : Dev nD) : Vec Ideal S400000x128 .f32 := V m c main_arg0
abbrev hArr (c : Dev nD) : Vec Ideal S400000x128 .f32 := V m c main_v9
abbrev cArr (c : Dev nD) : Vec Ideal S400000x128 .f32 := V m c main_v19
abbrev wfArr (c : Dev nD) : Vec Ideal S128x128 .f32 := V m c main_arg5
abbrev ufArr (c : Dev nD) : Vec Ideal S128x128 .f32 := V m c main_arg6
abbrev bfArr (c : Dev nD) : Vec Ideal S1x128 .f32 := V m c main_v20
abbrev wgArr (c : Dev nD) : Vec Ideal S128x384 .f32 := V m c main_arg8
abbrev ugArr (c : Dev nD) : Vec Ideal S128x384 .f32 := V m c main_arg9
abbrev bgArr (c : Dev nD) : Vec Ideal S1x384 .f32 := V m c main_v21

/-- The result: row `i 0` of the three row-indexed arrays through the cell's row function, at lane `i 1`. -/
def G (c : Dev nD) : Vec Ideal S400000x256 .f32 := fun i =>
  cellRow (fun k => xArr m c (ix2 (i 0) k)) (fun k => hArr m c (ix2 (i 0) k)) (fun j => cArr m c (ix2 (i 0) j))
    (wfArr m c) (ufArr m c) (fun j => bfArr m c (ix2 0 j)) (wgArr m c) (ugArr m c) (fun q => bgArr m c (ix2 0 q)) (i 1)

/-! ## What the body leaves, entry by entry -/

/-- Entry `y` of the buffer the body leaves, from the nine staged blocks. -/
theorem out_entry (x0 x1 x2 : Vec Ideal S2000x128 .f32) (x3 x4 : Vec Ideal S128x128 .f32) (x5 : Vec Ideal S1x128 .f32)
    (x6 x7 : Vec Ideal S128x384 .f32) (x8 : Vec Ideal S1x384 .f32) (y : S2000x256.Idx) :
    out0_9 (F := Ideal) x0 x1 x2 x3 x4 x5 x6 x7 x8 y
      = cellRow (fun k => x0 (ix2 (y 0) k)) (fun k => x1 (ix2 (y 0) k)) (fun j => x2 (ix2 (y 0) j)) x3 x4 (fun j => x5 (ix2 0 j))
          x6 x7 (fun q => x8 (ix2 0 q)) (y 1) := by
  unfold out0_9
  simp only [View.ld_unit_zero (S := S2000x128) zero_offsets, View.ld_unit_zero (S := S128x128) zero_offsets,
    View.ld_unit_zero (S := S1x128) zero_offsets, View.ld_unit_zero (S := S128x384) zero_offsets,
    View.ld_unit_zero (S := S1x384) zero_offsets]
  rw [Cert.KernelIdeal.Value.canon9_eq]
  exact Cert.KernelIdeal.Row.block_entry x0 x1 x6 x7 x8 x2 x3 x4 x5 y

/-! ## The index maps over the grid -/

/-- Decided over the 200 points: the three row-indexed inputs move with the output along the rows and stay at lane block 0;
    the weights and biases stay at block (0, 0); the output's row block is the point's number. -/
theorem idx_facts : ∀ t : Fin cfg0.N, win0_0.index t (0 : Fin 2) = win0_9.index t (0 : Fin 2)
    ∧ win0_0.index t (1 : Fin 2) = 0
    ∧ win0_1.index t (0 : Fin 2) = win0_9.index t (0 : Fin 2)
    ∧ win0_1.index t (1 : Fin 2) = 0
    ∧ win0_2.index t (0 : Fin 2) = win0_9.index t (0 : Fin 2)
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (1 : Fin 2) = 0
    ∧ win0_9.index t (0 : Fin 2) = t.val :=
  (by decide +kernel : ∀ t : Fin grid0.N, _)

/-! ## Each window's block read off its array -/

/-- Row `p` of window 0's block at point `t` is row `r` of its array, `r` the block's first row plus `p`. -/
theorem blk_row0 (c : Dev nD) (t : Fin cfg0.N) (p : Fin 2000) (k : Fin 128) (r : Fin 400000)
    (hr : r.val = win0_0.index t (0 : Fin 2) * 2000 + 1 * p.val) (h1 : win0_0.index t (1 : Fin 2) = 0) :
    iblk m c 0 t (ix2 p k) = xArr m c (ix2 r k) := by
  show V m c main_arg0 (((cfg0.win 0).blk t).view.emb (ix2 p k)) = V m c main_arg0 (ix2 r k)
  have e : ((cfg0.win 0).blk t).view.emb (ix2 p k) = ix2 r k := by
    funext a; apply Fin.ext
    match a with
    | ⟨0, _⟩ => show win0_0.index t (0 : Fin 2) * 2000 + 1 * p.val = r.val; omega
    | ⟨1, _⟩ => show win0_0.index t (1 : Fin 2) * 128 + 1 * k.val = k.val; omega
  rw [e]

/-- Row `p` of window 1's block at point `t` is row `r` of its array, `r` the block's first row plus `p`. -/
theorem blk_row1 (c : Dev nD) (t : Fin cfg0.N) (p : Fin 2000) (k : Fin 128) (r : Fin 400000)
    (hr : r.val = win0_1.index t (0 : Fin 2) * 2000 + 1 * p.val) (h1 : win0_1.index t (1 : Fin 2) = 0) :
    iblk m c 1 t (ix2 p k) = hArr m c (ix2 r k) := by
  show V m c main_v9 (((cfg0.win 1).blk t).view.emb (ix2 p k)) = V m c main_v9 (ix2 r k)
  have e : ((cfg0.win 1).blk t).view.emb (ix2 p k) = ix2 r k := by
    funext a; apply Fin.ext
    match a with
    | ⟨0, _⟩ => show win0_1.index t (0 : Fin 2) * 2000 + 1 * p.val = r.val; omega
    | ⟨1, _⟩ => show win0_1.index t (1 : Fin 2) * 128 + 1 * k.val = k.val; omega
  rw [e]

/-- Row `p` of window 2's block at point `t` is row `r` of its array, `r` the block's first row plus `p`. -/
theorem blk_row2 (c : Dev nD) (t : Fin cfg0.N) (p : Fin 2000) (k : Fin 128) (r : Fin 400000)
    (hr : r.val = win0_2.index t (0 : Fin 2) * 2000 + 1 * p.val) (h1 : win0_2.index t (1 : Fin 2) = 0) :
    iblk m c 2 t (ix2 p k) = cArr m c (ix2 r k) := by
  show V m c main_v19 (((cfg0.win 2).blk t).view.emb (ix2 p k)) = V m c main_v19 (ix2 r k)
  have e : ((cfg0.win 2).blk t).view.emb (ix2 p k) = ix2 r k := by
    funext a; apply Fin.ext
    match a with
    | ⟨0, _⟩ => show win0_2.index t (0 : Fin 2) * 2000 + 1 * p.val = r.val; omega
    | ⟨1, _⟩ => show win0_2.index t (1 : Fin 2) * 128 + 1 * k.val = k.val; omega
  rw [e]

/-- Window 3's block is its whole array at every point. -/
theorem blk_whole3 (c : Dev nD) (t : Fin cfg0.N) (h0 : win0_3.index t (0 : Fin 2) = 0) (h1 : win0_3.index t (1 : Fin 2) = 0) :
    (iblk m c 3 t : Vec Ideal S128x128 .f32) = wfArr m c := by
  funext j
  show V m c main_arg5 (((cfg0.win 3).blk t).view.emb j) = V m c main_arg5 j
  have e : ((cfg0.win 3).blk t).view.emb j = j := by
    funext a; apply Fin.ext
    match a with
    | ⟨0, _⟩ => show win0_3.index t (0 : Fin 2) * 128 + 1 * (j 0).val = (j 0).val; omega
    | ⟨1, _⟩ => show win0_3.index t (1 : Fin 2) * 128 + 1 * (j 1).val = (j 1).val; omega
  rw [e]

/-- Window 4's block is its whole array at every point. -/
theorem blk_whole4 (c : Dev nD) (t : Fin cfg0.N) (h0 : win0_4.index t (0 : Fin 2) = 0) (h1 : win0_4.index t (1 : Fin 2) = 0) :
    (iblk m c 4 t : Vec Ideal S128x128 .f32) = ufArr m c := by
  funext j
  show V m c main_arg6 (((cfg0.win 4).blk t).view.emb j) = V m c main_arg6 j
  have e : ((cfg0.win 4).blk t).view.emb j = j := by
    funext a; apply Fin.ext
    match a with
    | ⟨0, _⟩ => show win0_4.index t (0 : Fin 2) * 128 + 1 * (j 0).val = (j 0).val; omega
    | ⟨1, _⟩ => show win0_4.index t (1 : Fin 2) * 128 + 1 * (j 1).val = (j 1).val; omega
  rw [e]

/-- Window 5's block is its whole array at every point. -/
theorem blk_whole5 (c : Dev nD) (t : Fin cfg0.N) (h0 : win0_5.index t (0 : Fin 2) = 0) (h1 : win0_5.index t (1 : Fin 2) = 0) :
    (iblk m c 5 t : Vec Ideal S1x128 .f32) = bfArr m c := by
  funext j
  show V m c main_v20 (((cfg0.win 5).blk t).view.emb j) = V m c main_v20 j
  have e : ((cfg0.win 5).blk t).view.emb j = j := by
    funext a; apply Fin.ext
    match a with
    | ⟨0, _⟩ => show win0_5.index t (0 : Fin 2) * 1 + 1 * (j 0).val = (j 0).val; omega
    | ⟨1, _⟩ => show win0_5.index t (1 : Fin 2) * 128 + 1 * (j 1).val = (j 1).val; omega
  rw [e]

/-- Window 6's block is its whole array at every point. -/
theorem blk_whole6 (c : Dev nD) (t : Fin cfg0.N) (h0 : win0_6.index t (0 : Fin 2) = 0) (h1 : win0_6.index t (1 : Fin 2) = 0) :
    (iblk m c 6 t : Vec Ideal S128x384 .f32) = wgArr m c := by
  funext j
  show V m c main_arg8 (((cfg0.win 6).blk t).view.emb j) = V m c main_arg8 j
  have e : ((cfg0.win 6).blk t).view.emb j = j := by
    funext a; apply Fin.ext
    match a with
    | ⟨0, _⟩ => show win0_6.index t (0 : Fin 2) * 128 + 1 * (j 0).val = (j 0).val; omega
    | ⟨1, _⟩ => show win0_6.index t (1 : Fin 2) * 384 + 1 * (j 1).val = (j 1).val; omega
  rw [e]

/-- Window 7's block is its whole array at every point. -/
theorem blk_whole7 (c : Dev nD) (t : Fin cfg0.N) (h0 : win0_7.index t (0 : Fin 2) = 0) (h1 : win0_7.index t (1 : Fin 2) = 0) :
    (iblk m c 7 t : Vec Ideal S128x384 .f32) = ugArr m c := by
  funext j
  show V m c main_arg9 (((cfg0.win 7).blk t).view.emb j) = V m c main_arg9 j
  have e : ((cfg0.win 7).blk t).view.emb j = j := by
    funext a; apply Fin.ext
    match a with
    | ⟨0, _⟩ => show win0_7.index t (0 : Fin 2) * 128 + 1 * (j 0).val = (j 0).val; omega
    | ⟨1, _⟩ => show win0_7.index t (1 : Fin 2) * 384 + 1 * (j 1).val = (j 1).val; omega
  rw [e]

/-- Window 8's block is its whole array at every point. -/
theorem blk_whole8 (c : Dev nD) (t : Fin cfg0.N) (h0 : win0_8.index t (0 : Fin 2) = 0) (h1 : win0_8.index t (1 : Fin 2) = 0) :
    (iblk m c 8 t : Vec Ideal S1x384 .f32) = bgArr m c := by
  funext j
  show V m c main_v21 (((cfg0.win 8).blk t).view.emb j) = V m c main_v21 j
  have e : ((cfg0.win 8).blk t).view.emb j = j := by
    funext a; apply Fin.ext
    match a with
    | ⟨0, _⟩ => show win0_8.index t (0 : Fin 2) * 1 + 1 * (j 0).val = (j 0).val; omega
    | ⟨1, _⟩ => show win0_8.index t (1 : Fin 2) * 384 + 1 * (j 1).val = (j 1).val; omega
  rw [e]

/-! ## What a point writes back -/

/-- WHAT POINT `t` WRITES BACK is block `t` of `G`. -/
theorem flushed_eq (c : Dev nD) (t : Fin cfg0.N) :
    (dats m 0 c).flushed 9 t = ((cfg0.win 9).blk t).view.read (Elt Ideal) (G m c) := by
  rw [Cert.KernelIdeal.Value.flushed9]
  obtain ⟨f0a, f0b, f1a, f1b, f2a, f2b, f3a, f3b, f4a, f4b, f5a, f5b, f6a, f6b, f7a, f7b, f8a, f8b, f9b, f9a⟩ := idx_facts t
  funext y
  show out0_9 (iblk m c 0 t) (iblk m c 1 t) (iblk m c 2 t) (iblk m c 3 t) (iblk m c 4 t) (iblk m c 5 t) (iblk m c 6 t) (iblk m c 7 t) (iblk m c 8 t) y = G m c (((cfg0.win 9).blk t).view.emb y)
  refine (out_entry (iblk m c 0 t) (iblk m c 1 t) (iblk m c 2 t) (iblk m c 3 t) (iblk m c 4 t) (iblk m c 5 t) (iblk m c 6 t) (iblk m c 7 t) (iblk m c 8 t) y).trans ?_
  unfold G
  refine cellRow_congr
    (funext fun k => blk_row0 m c t (y 0) k _ (by show win0_9.index t (0 : Fin 2) * 2000 + 1 * (y 0).val = win0_0.index t (0 : Fin 2) * 2000 + 1 * (y 0).val; omega) f0b)
    (funext fun k => blk_row1 m c t (y 0) k _ (by show win0_9.index t (0 : Fin 2) * 2000 + 1 * (y 0).val = win0_1.index t (0 : Fin 2) * 2000 + 1 * (y 0).val; omega) f1b)
    (funext fun k => blk_row2 m c t (y 0) k _ (by show win0_9.index t (0 : Fin 2) * 2000 + 1 * (y 0).val = win0_2.index t (0 : Fin 2) * 2000 + 1 * (y 0).val; omega) f2b)
    (blk_whole3 m c t f3a f3b) (blk_whole4 m c t f4a f4b)
    (funext fun j => congrFun (blk_whole5 m c t f5a f5b) (ix2 0 j))
    (blk_whole6 m c t f6a f6b) (blk_whole7 m c t f7a f7b)
    (funext fun q => congrFun (blk_whole8 m c t f8a f8b) (ix2 0 q))
    (Fin.ext (by show (y 1).val = win0_9.index t (1 : Fin 2) * 256 + 1 * (y 1).val; omega))

/-! ## The blocks tile the array -/

/-- An index of the result array is in point `t`'s block iff each coordinate is in the block's range on its axis. -/
theorem mem_blk (t : Fin cfg0.N) (i : S400000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v22).slice (win0_9.rect t)).set ↔ _
  rw [View.set_slice_whole, Rect.mem_set_unit]
  exact Iff.rfl

theorem points : cfg0.N = 200 := by decide

/-- Row `r` lies in the block of point `r / 2000`, and every point writes back. -/
theorem cover (i : S400000x256.Idx) : ∃ t : Fin cfg0.N, (cfg0.win 9).flush t = true ∧ i ∈ ((cfg0.win 9).blk t).view.set := by
  have hi0 : (i 0).val < 400000 := (i 0).isLt
  have hi1 : (i 1).val < 256 := (i 1).isLt
  let t : Fin cfg0.N := ⟨(i 0).val / 2000, by rw [points]; omega⟩
  obtain ⟨f0a, f0b, f1a, f1b, f2a, f2b, f3a, f3b, f4a, f4b, f5a, f5b, f6a, f6b, f7a, f7b, f8a, f8b, f9b, f9a⟩ := idx_facts t
  have ht : win0_9.index t (0 : Fin 2) = (i 0).val / 2000 := f9a
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 256 ≤ (i 1).val ∧ (i 1).val < win0_9.index t (1 : Fin 2) * 256 + 256; omega

/-- THE RESULT ARRAY after the run. -/
theorem final (c : Dev nD) : (dats m 0 c).arrAt 9 cfg0.N = G m c :=
  (dats m 0 c).arrAt_eq_of_cover 9 (G m c) (fun t _ => flushed_eq m c t) cover

/-- The kernel's run with its result array named: every weakly fair execution terminates with the result at `G` and the
    arguments unchanged. -/
theorem run : θ_run defs (onTc (τ := τ) (main (F := Ideal))) ⟨m, fun _ => 0, ρ⟩ fun r => ∀ c : Dev nD,
      r.2.mem ((c : Thread nD τ).loc main_v22) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Whole

end
-- ==== Proof.KernelHost.lean ====
/-
  The arrays the kernel region finds, as functions of the program's arguments.

  Before the region the host computes the two mailbox sums — for the hidden states and for the cell states alike: a
  child index below zero wrapped by 400000, the children's rows gathered, then scatter-added into zeros by parent index —
  and views each bias as a one-row matrix. Nothing before the region writes an argument. So the result array of
  KernelArray is the cell's row function of row `i 0` of `x` and of the two mailbox sums of the arguments, with the
  weights and biases as launched. The mailbox sum is carried as one function and never opened.
-/
import proofs.«116488_j24730421691110_1_alg».proof.Proof.Gen.KernelIdeal.Frame
import proofs.«116488_j24730421691110_1_alg».proof.Proof.KernelArray
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Cert.KernelIdeal.Whole Cert.TreeCell
open Idealize.ShloMosaic Idealize.ShloMosaic.TcCoe Idealize.SL.Sem Idealize.ShloMosaic.StableHlo Idealize.ShloMosaic.ValueIdx

/-- THE MAILBOX SUM of an array of node rows: row `e` of the gathered array is the row of child `child e` (an index below
    zero first moved up by 400000), and the rows are added into a zero array at row `parent e`. -/
def mailbox (a : (⟨S400000x128, .f32⟩ : BufTy).Contents (Elt Ideal)) (child parent : (⟨S400000, .i32⟩ : BufTy).Contents (Elt Ideal)) :
    (⟨S400000x128, .f32⟩ : BufTy).Contents (Elt Ideal) :=
  Host.scatterAdd scatter_S400000x128_S400000x1_S400000x128_1_0_0_1
    (broadcastInDim S400000x128 ![] bcast_S_S400000x128 (constant (F := Ideal) S_ .f32 0x00000000#32))
    (broadcastInDim S400000x1 ![0] bcast_S400000_S400000x1_0 parent)
    (Host.gather gather_S400000x128_S400000x1_S400000x128_1_0_n_n_0_1_1128 a
      (broadcastInDim S400000x1 ![0] bcast_S400000_S400000x1_0
        (select (cmpi .slt child (broadcastInDim S400000 ![] bcast_S_S400000 (constantI S_ 32 0#32)))
          (addi child (broadcastInDim S400000 ![] bcast_S_S400000 (constantI S_ 32 400000#32))) child)))

variable (m : (ℓ : Loc nD τ sig) → Buf (Elt Ideal) ℓ)

/-! ## The arguments as launched, at their literal types -/

abbrev argX (c : Dev nD) : Vec Ideal S400000x128 .f32 := m ((c : Thread nD τ).loc main_arg0)
abbrev argH (c : Dev nD) : Vec Ideal S400000x128 .f32 := m ((c : Thread nD τ).loc main_arg1)
abbrev argC (c : Dev nD) : Vec Ideal S400000x128 .f32 := m ((c : Thread nD τ).loc main_arg2)
abbrev argChild (c : Dev nD) : IVec S400000 32 := m ((c : Thread nD τ).loc main_arg3)
abbrev argParent (c : Dev nD) : IVec S400000 32 := m ((c : Thread nD τ).loc main_arg4)
abbrev argWf (c : Dev nD) : Vec Ideal S128x128 .f32 := m ((c : Thread nD τ).loc main_arg5)
abbrev argUf (c : Dev nD) : Vec Ideal S128x128 .f32 := m ((c : Thread nD τ).loc main_arg6)
abbrev argBf (c : Dev nD) : Vec Ideal S128 .f32 := m ((c : Thread nD τ).loc main_arg7)
abbrev argWg (c : Dev nD) : Vec Ideal S128x384 .f32 := m ((c : Thread nD τ).loc main_arg8)
abbrev argUg (c : Dev nD) : Vec Ideal S128x384 .f32 := m ((c : Thread nD τ).loc main_arg9)
abbrev argBg (c : Dev nD) : Vec Ideal S384 .f32 := m ((c : Thread nD τ).loc main_arg10)

/-! ## What the region finds -/

theorem x_eq (c : Dev nD) : xArr m c = argX m c := V_main_arg0 m c
theorem wf_eq (c : Dev nD) : wfArr m c = argWf m c := V_main_arg5 m c
theorem uf_eq (c : Dev nD) : ufArr m c = argUf m c := V_main_arg6 m c
theorem wg_eq (c : Dev nD) : wgArr m c = argWg m c := V_main_arg8 m c
theorem ug_eq (c : Dev nD) : ugArr m c = argUg m c := V_main_arg9 m c

/-- The hidden mailbox the region finds is the mailbox sum of the hidden states. -/
theorem h_eq (c : Dev nD) : hArr m c = mailbox (argH m c) (argChild m c) (argParent m c) := by
  show V m c main_v9 = _
  dsimp only [V, hostOps0]; after_results; rfl

/-- The cell mailbox the region finds is the mailbox sum of the cell states. -/
theorem c_eq (c : Dev nD) : cArr m c = mailbox (argC m c) (argChild m c) (argParent m c) := by
  show V m c main_v19 = _
  dsimp only [V, hostOps0]; after_results_simp <;> rfl

/-- The forget bias the region finds is the argument viewed as one row. -/
theorem bf_eq (c : Dev nD) : bfArr m c = shapeCast S1x128 (argBf m c) shapeCasts_S128_S1x128 := by
  show V m c main_v20 = _
  dsimp only [V, hostOps0]; after_results; rfl

theorem bg_eq (c : Dev nD) : bgArr m c = shapeCast S1x384 (argBg m c) shapeCasts_S384_S1x384 := by
  show V m c main_v21 = _
  dsimp only [V, hostOps0]; after_results; rfl

/-- Lane `j` of the one-row forget bias is lane `j` of the argument. -/
theorem bf_apply (c : Dev nD) (j : Fin 128) : bfArr m c (ix2 0 j) = argBf m c (ix1 j) :=
  (congrFun (bf_eq m c) (ix2 0 j)).trans (shapeCast_apply (argBf m c) shapeCasts_S128_S1x128 (ix2 0 j) (ix1 j) (by
    rw [Shape.rowMajor_val_one, Shape.rowMajor_val_two]; show j.val = 0 * 128 + j.val; omega))

theorem bg_apply (c : Dev nD) (q : Fin 384) : bgArr m c (ix2 0 q) = argBg m c (ix1 q) :=
  (congrFun (bg_eq m c) (ix2 0 q)).trans (shapeCast_apply (argBg m c) shapeCasts_S384_S1x384 (ix2 0 q) (ix1 q) (by
    rw [Shape.rowMajor_val_one, Shape.rowMajor_val_two]; show q.val = 0 * 384 + q.val; omega))

/-- THE RESULT ARRAY over the arguments: entry `i` is the cell's row function of row `i 0` of `x` and of the two mailbox
    sums, at lane `i 1`. -/
theorem G_apply (c : Dev nD) (i : S400000x256.Idx) :
    G m c i = cellRow (fun k => argX m c (ix2 (i 0) k))
      (fun k => mailbox (argH m c) (argChild m c) (argParent m c) (ix2 (i 0) k))
      (fun j => mailbox (argC m c) (argChild m c) (argParent m c) (ix2 (i 0) j))
      (argWf m c) (argUf m c) (fun j => argBf m c (ix1 j)) (argWg m c) (argUg m c) (fun q => argBg m c (ix1 q)) (i 1) := by
  unfold G
  exact cellRow_congr (funext fun k => congrFun (x_eq m c) _) (funext fun k => congrFun (h_eq m c) _)
    (funext fun j => congrFun (c_eq m c) _) (wf_eq m c) (uf_eq m c) (funext fun j => bf_apply m c j)
    (wg_eq m c) (ug_eq m c) (funext fun q => bg_apply m c q) rfl

end Cert.KernelIdeal.HostSide

end
-- ==== Proof.RefRow.lean ====
/-
  One entry of the reference's result, as the cell's row function.

  The reference computes, over all 400000 rows at once, the two products with the forget weights and the two with the
  joint-gate weights (each entry the sum over the 128 contracted lanes), adds the biases broadcast down the rows, spells
  each sigmoid as `1 / (1 + e^(-z))` (on the extended reals this is the logistic function at every argument, the
  infinities included, because the literal `1.0` denotes the real 1), slices the joint gates into their three groups, and
  concatenates the new hidden state with the new cell state. Read at one index, every stage reads its operands at the
  same row: entry `(r, o)` is `cellRow` of row `r` of `x` and of the two mailbox sums, at lane `o`. The mailbox sums
  themselves (a gather then a scatter-add) are carried as whole arrays and never opened.
-/
import proofs.«116488_j24730421691110_1_alg».proof.Proof.Gen.ReferenceIdeal.Read
import proofs.«116488_j24730421691110_1_alg».proof.Proof.CellSpec
import Idealize.ShloMosaic.Lib.Pipeline.Value
import Idealize.ShloMosaic.Lib.ValueIdx
import Idealize.ShloMosaic.Lib.IdealHost
import Idealize.ShloMosaic.PureOps.Ideal.Laws

noncomputable section

open scoped BigOperators
open Idealize.ShloMosaic Idealize.ShloMosaic.ValueIdx

namespace Cert.ReferenceIdeal.Row

open Cert.ReferenceIdeal Cert.ReferenceIdeal.Gen Cert.ReferenceIdeal.Read Cert.TreeCell

/-- `1 / (1 + e^(-z))` in the host's operations, with both ones the literal `1.0`, is the logistic function of `z` on the
    extended reals. -/
theorem sigmoid_expanded (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.div 1 (1 + Ideal.exp (-z))
  rw [Ideal.ofBits_one_f32]

section
variable (x0 x1 x2 : (⟨S400000x128, .f32⟩ : BufTy).Contents (Elt Ideal)) (x3 x4 : (⟨S400000, .i32⟩ : BufTy).Contents (Elt Ideal))
  (x5 x6 : (⟨S128x128, .f32⟩ : BufTy).Contents (Elt Ideal)) (x7 : (⟨S128, .f32⟩ : BufTy).Contents (Elt Ideal)) (x8 x9 : (⟨S128x384, .f32⟩ : BufTy).Contents (Elt Ideal)) (x10 : (⟨S384, .f32⟩ : BufTy).Contents (Elt Ideal))

/-- Row `r` of `x`, of the hidden mailbox and of the cell mailbox. -/
abbrev xRow (r : Fin 400000) : Fin 128 → EReal := fun k => x0 (ix2 r k)
abbrev hRow (r : Fin 400000) : Fin 128 → EReal := fun k => val_main_v9 (F := Ideal) x1 x3 x4 (ix2 r k)
abbrev cRow (r : Fin 400000) : Fin 128 → EReal := fun k => val_main_v19 (F := Ideal) x2 x3 x4 (ix2 r k)

/-- The forget gate's argument at `(r, j)`. -/
theorem forget_lin (r : Fin 400000) (j : Fin 128) :
    val_main_v25 (F := Ideal) x0 x1 x3 x4 x5 x6 x7 (ix2 r j)
      = lin (xRow x0 r) (hRow x1 x3 x4 r) x5 x6 (fun j => x7 (ix1 j)) j := by
  have el0 : ∀ k, lidx_main_v20 (ix2 r j) k = ix2 r k := fun k => funext fun a => match a with | ⟨0, _⟩ => rfl | ⟨1, _⟩ => rfl
  have er0 : ∀ k, ridx_main_v20 (ix2 r j) k = ix2 k j := fun k => funext fun a => match a with | ⟨0, _⟩ => rfl | ⟨1, _⟩ => rfl
  have el1 : ∀ k, lidx_main_v21 (ix2 r j) k = ix2 r k := fun k => funext fun a => match a with | ⟨0, _⟩ => rfl | ⟨1, _⟩ => rfl
  have er1 : ∀ k, ridx_main_v21 (ix2 r j) k = ix2 k j := fun k => funext fun a => match a with | ⟨0, _⟩ => rfl | ⟨1, _⟩ => rfl
  have eb : idx_main_v23 (idx_main_v24 (ix2 r j)) = ix1 j := funext fun a => match a with | ⟨0, _⟩ => rfl
  rw [val_main_v25_apply, val_main_v22_apply, val_main_v20_apply, val_main_v21_apply, val_main_v24_apply, val_main_v23_apply]
  simp only [el0, er0, el1, er1, eb]
  rfl

/-- The joint gates before the nonlinearities at `(r, q)`. -/
theorem gates_lin (r : Fin 400000) (q : Fin 384) :
    val_main_v37 (F := Ideal) x0 x1 x3 x4 x8 x9 x10 (ix2 r q)
      = lin (xRow x0 r) (hRow x1 x3 x4 r) x8 x9 (fun q => x10 (ix1 q)) q := by
  have el0 : ∀ k, lidx_main_v32 (ix2 r q) k = ix2 r k := fun k => funext fun a => match a with | ⟨0, _⟩ => rfl | ⟨1, _⟩ => rfl
  have er0 : ∀ k, ridx_main_v32 (ix2 r q) k = ix2 k q := fun k => funext fun a => match a with | ⟨0, _⟩ => rfl | ⟨1, _⟩ => rfl
  have el1 : ∀ k, lidx_main_v33 (ix2 r q) k = ix2 r k := fun k => funext fun a => match a with | ⟨0, _⟩ => rfl | ⟨1, _⟩ => rfl
  have er1 : ∀ k, ridx_main_v33 (ix2 r q) k = ix2 k q := fun k => funext fun a => match a with | ⟨0, _⟩ => rfl | ⟨1, _⟩ => rfl
  have eb : idx_main_v35 (idx_main_v36 (ix2 r q)) = ix1 q := funext fun a => match a with | ⟨0, _⟩ => rfl
  rw [val_main_v37_apply, val_main_v34_apply, val_main_v32_apply, val_main_v33_apply, val_main_v36_apply, val_main_v35_apply]
  simp only [el0, er0, el1, er1, eb]
  rfl

/-- The forget gate at `(r, j)`. -/
theorem forget_gate (r : Fin 400000) (j : Fin 128) :
    val_main_v31 (F := Ideal) x0 x1 x3 x4 x5 x6 x7 (ix2 r j)
      = Ideal.logistic (lin (xRow x0 r) (hRow x1 x3 x4 r) x5 x6 (fun j => x7 (ix1 j)) j) := by
  rw [val_main_v31_apply, val_main_v30_apply, val_main_cst_5_apply, val_main_v29_apply, val_main_v28_apply,
    val_main_cst_4_apply, val_main_v27_apply, val_main_v26_apply, forget_lin]
  exact sigmoid_expanded _

/-- The input gate at `(r, j)`: the sigmoid of lane `j` of the joint gates. -/
theorem input_gate (r : Fin 400000) (j : Fin 128) :
    val_main_v47 (F := Ideal) x0 x1 x3 x4 x8 x9 x10 (ix2 r j)
      = Ideal.logistic (lin (xRow x0 r) (hRow x1 x3 x4 r) x8 x9 (fun q => x10 (ix1 q)) ⟨j.val, by omega⟩) := by
  have es : idx_main_v39 (ix2 r j) = ix2 r (⟨j.val, by omega⟩ : Fin 384) := funext fun a => match a with | ⟨0, _⟩ => rfl | ⟨1, _⟩ => rfl
  rw [val_main_v47_apply, val_main_v46_apply, val_main_cst_7_apply, val_main_v45_apply, val_main_v44_apply,
    val_main_cst_6_apply, val_main_v43_apply, val_main_v42_apply, val_main_v39_apply, es, gates_lin]
  exact sigmoid_expanded _

/-- The output gate at `(r, j)`: the sigmoid of lane `j + 128` of the joint gates. -/
theorem output_gate (r : Fin 400000) (j : Fin 128) :
    val_main_v56 (F := Ideal) x0 x1 x3 x4 x8 x9 x10 (ix2 r j)
      = Ideal.logistic (lin (xRow x0 r) (hRow x1 x3 x4 r) x8 x9 (fun q => x10 (ix1 q)) ⟨j.val + 128, by omega⟩) := by
  have es : idx_main_v40 (ix2 r j) = ix2 r (⟨j.val + 128, by omega⟩ : Fin 384) :=
    funext fun a => match a with | ⟨0, _⟩ => rfl | ⟨1, _⟩ => Fin.ext (Nat.add_comm 128 j.val)
  rw [val_main_v56_apply, val_main_v55_apply, val_main_cst_9_apply, val_main_v54_apply, val_main_v53_apply,
    val_main_cst_8_apply, val_main_v52_apply, val_main_v51_apply, val_main_v40_apply, es, gates_lin]
  exact sigmoid_expanded _

/-- The update gate at `(r, j)`: the hyperbolic tangent of lane `j + 256` of the joint gates. -/
theorem update_gate (r : Fin 400000) (j : Fin 128) :
    val_main_v48 (F := Ideal) x0 x1 x3 x4 x8 x9 x10 (ix2 r j)
      = Ideal.tanh (lin (xRow x0 r) (hRow x1 x3 x4 r) x8 x9 (fun q => x10 (ix1 q)) ⟨j.val + 256, by omega⟩) := by
  have es : idx_main_v41 (ix2 r j) = ix2 r (⟨j.val + 256, by omega⟩ : Fin 384) :=
    funext fun a => match a with | ⟨0, _⟩ => rfl | ⟨1, _⟩ => Fin.ext (Nat.add_comm 256 j.val)
  rw [val_main_v48_apply, val_main_v41_apply, es, gates_lin]
  rfl

/-- The new cell state at `(r, j)`. -/
theorem cell_state (r : Fin 400000) (j : Fin 128) :
    val_main_v50 (F := Ideal) x0 x1 x2 x3 x4 x5 x6 x7 x8 x9 x10 (ix2 r j)
      = cNew (xRow x0 r) (hRow x1 x3 x4 r) (cRow x2 x3 x4 r) x5 x6 (fun j => x7 (ix1 j)) x8 x9 (fun q => x10 (ix1 q)) j := by
  rw [val_main_v50_apply, val_main_v49_apply, val_main_v38_apply, input_gate, update_gate, forget_gate]
  rfl

/-- The new hidden state at `(r, j)`. -/
theorem hidden_state (r : Fin 400000) (j : Fin 128) :
    val_main_v58 (F := Ideal) x0 x1 x2 x3 x4 x5 x6 x7 x8 x9 x10 (ix2 r j)
      = hNew (xRow x0 r) (hRow x1 x3 x4 r) (cRow x2 x3 x4 r) x5 x6 (fun j => x7 (ix1 j)) x8 x9 (fun q => x10 (ix1 q)) j := by
  rw [val_main_v58_apply, val_main_v57_apply, output_gate, cell_state]
  rfl

/-- ENTRY `i` OF THE REFERENCE'S RESULT is the cell's row function of row `i 0`, at lane `i 1`: the concatenation reads its
    first operand (the new hidden state) on lanes below 128 and its second (the new cell state) on the others, each at lane
    `i 1 mod 128`. -/
theorem result_entry (i : S400000x256.Idx) :
    val_main_v59 (F := Ideal) x0 x1 x2 x3 x4 x5 x6 x7 x8 x9 x10 i
      = cellRow (xRow x0 (i 0)) (hRow x1 x3 x4 (i 0)) (cRow x2 x3 x4 (i 0)) x5 x6 (fun j => x7 (ix1 j)) x8 x9 (fun q => x10 (ix1 q)) (i 1) := by
  have h1 : (i 1).val < 256 := (i 1).isLt
  have hm : (i 1).val % 128 < 128 := Nat.mod_lt _ (by decide)
  unfold val_main_v59 cellRow
  by_cases hlt : (i 1).val < 128
  · rw [if_pos hlt]
    refine (concatenate_pair_apply_left (s₁ := S400000x128) (s₂ := S400000x128) (1 : Fin 2) _ _
      concatenates_S400000x128_S400000x128_S400000x256_d1 i rfl
      (ix2 (i 0) (⟨(i 1).val % 128, hm⟩ : Fin 128)) (fun b => match b with
        | ⟨0, _⟩ => rfl
        | ⟨1, _⟩ => Nat.mod_eq_of_lt hlt)).trans ?_
    exact hidden_state x0 x1 x2 x3 x4 x5 x6 x7 x8 x9 x10 (i 0) _
  · rw [if_neg hlt]
    refine (concatenate_pair_apply_right (s₁ := S400000x128) (s₂ := S400000x128) (1 : Fin 2) _ _
      concatenates_S400000x128_S400000x128_S400000x256_d1 i rfl rfl
      (ix2 (i 0) (⟨(i 1).val % 128, hm⟩ : Fin 128)) (fun b hb => match b with
        | ⟨0, _⟩ => rfl
        | ⟨1, _⟩ => absurd rfl hb) (by show (i 1).val % 128 + 128 = (i 1).val; omega)).trans ?_
    exact cell_state x0 x1 x2 x3 x4 x5 x6 x7 x8 x9 x10 (i 0) _

end

end Cert.ReferenceIdeal.Row

end
-- ==== Proof.Bridge.lean ====
/-
  The two results are one array.

  The kernel's result array (KernelHost) and the reference's result (RefRow) are both the cell's row function, applied
  row by row to the same `x`, the same weights and biases, and to mailbox sums that both programs compute with the same
  host operations from the same arguments — the same wrap of negative child indices, the same gather, the same
  scatter-add into zeros, under dimension records that are equal field by field. So the mailbox sums agree as whole
  arrays, and the results agree at every index.
-/
import proofs.«116488_j24730421691110_1_alg».proof.Proof.KernelHost
import proofs.«116488_j24730421691110_1_alg».proof.Proof.RefRow

noncomputable section

namespace Cert.Bridge

open Idealize.ShloMosaic Idealize.ShloMosaic.TcCoe Idealize.SL.Sem Idealize.ShloMosaic.ValueIdx
open Cert.TreeCell Cert.KernelIdeal.HostSide Cert.ReferenceIdeal.Read

/-- The kernel program's mailbox sum is the reference's hidden-state mailbox stage. -/
theorem mailbox_hidden (a : (⟨Cert.KernelIdeal.S400000x128, .f32⟩ : BufTy).Contents (Elt Ideal))
    (child parent : (⟨Cert.KernelIdeal.S400000, .i32⟩ : BufTy).Contents (Elt Ideal)) :
    mailbox a child parent = val_main_v9 (F := Ideal) a child parent := by
  unfold mailbox val_main_v9 val_main_v8 val_main_v7 val_main_cst val_main_v6 val_main_v5 val_main_v4 val_main_v3 val_main_v2
    val_main_c_0 val_main_v1 val_main_v0 val_main_c
  rfl

/-- And the reference's cell-state mailbox stage. -/
theorem mailbox_cell (a : (⟨Cert.KernelIdeal.S400000x128, .f32⟩ : BufTy).Contents (Elt Ideal))
    (child parent : (⟨Cert.KernelIdeal.S400000, .i32⟩ : BufTy).Contents (Elt Ideal)) :
    mailbox a child parent = val_main_v19 (F := Ideal) a child parent := by
  unfold mailbox val_main_v19 val_main_v18 val_main_v17 val_main_cst_3 val_main_v16 val_main_v15 val_main_v14 val_main_v13 val_main_v12
    val_main_c_2 val_main_v11 val_main_v10 val_main_c_1
  rfl

/-- THE KERNEL'S RESULT ARRAY IS THE REFERENCE'S RESULT of the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.Whole.G m c
      = val_main_v59 (F := Ideal) (argX m c) (argH m c) (argC m c) (argChild m c) (argParent m c) (argWf m c) (argUf m c) (argBf m c)
          (argWg m c) (argUg m c) (argBg m c) := by
  funext i
  refine (G_apply m c i).trans ?_
  refine Eq.trans ?_ (Cert.ReferenceIdeal.Row.result_entry (argX m c) (argH m c) (argC m c) (argChild m c) (argParent m c) (argWf m c)
    (argUf m c) (argBf m c) (argWg m c) (argUg m c) (argBg m c) i).symm
  exact cellRow_congr rfl (funext fun k => congrFun (mailbox_hidden _ _ _) _) (funext fun j => congrFun (mailbox_cell _ _ _) _)
    rfl rfl rfl rfl rfl rfl rfl

end Cert.Bridge

end
-- ==== Proof.lean ====
/-
  The Child-Sum Tree-LSTM cell over 400000 nodes: a Pallas kernel against its jnp reference.

  Both programs first form, on the host, the two mailbox sums (children's hidden and cell states gathered by child index and
  scatter-added by parent index). The kernel then tiles the nodes into 200 blocks of 2000 rows and, per block, contracts the
  rows of `x` and of the hidden mailbox with the forget weights and the joint-gate weights, adds the biases, applies
  `σ` and `tanh` lane by lane and writes `[h' | c']`; the reference does the same over all rows at once, spelling each
  `σ z` as `1 / (1 + e^(-z))`.

  Over the extended reals a narrowing to bf16 is the identity, a product accumulated into zero is the plain sum over the
  contracted lanes (as is the host's `dot_general`), and `1 / (1 + e^(-z))` is the logistic function at every `z`. Every
  result row depends only on the same row of `x` and of the mailbox sums, so tiling the rows changes nothing: both results
  are the one row function `Cert.TreeCell.cellRow` applied row by row (KernelRow, KernelArray, KernelHost for the kernel;
  RefRow for the reference; Bridge joins them). No law used needs the inputs finite, so the precondition is never opened.
  The ideal pass rewrote nothing, so the idealization claim is trivial; the three frames are the generated ones.
-/
import proofs.«116488_j24730421691110_1_alg».proof.Defs
import proofs.«116488_j24730421691110_1_alg».proof.Proof.Gen.Kernel
import proofs.«116488_j24730421691110_1_alg».proof.Proof.Gen.Kernel.Skeleton
import proofs.«116488_j24730421691110_1_alg».proof.Proof.Gen.Kernel.Launch
import proofs.«116488_j24730421691110_1_alg».proof.Proof.Gen.Kernel.Points
import proofs.«116488_j24730421691110_1_alg».proof.Proof.Gen.Kernel.Frame
import proofs.«116488_j24730421691110_1_alg».proof.Proof.Gen.KernelIdeal
import proofs.«116488_j24730421691110_1_alg».proof.Proof.Gen.KernelIdeal.Skeleton
import proofs.«116488_j24730421691110_1_alg».proof.Proof.Gen.KernelIdeal.Launch
import proofs.«116488_j24730421691110_1_alg».proof.Proof.Gen.KernelIdeal.Points
import proofs.«116488_j24730421691110_1_alg».proof.Proof.Gen.KernelIdeal.Frame
import proofs.«116488_j24730421691110_1_alg».proof.Proof.Gen.ReferenceIdeal
import proofs.«116488_j24730421691110_1_alg».proof.Proof.Gen.Pre_finite_inputs
import proofs.«116488_j24730421691110_1_alg».proof.Proof.Gen.KernelIdeal.Value
import proofs.«116488_j24730421691110_1_alg».proof.Proof.Gen.ReferenceIdeal.Run
import proofs.«116488_j24730421691110_1_alg».proof.Proof.Gen.ReferenceIdeal.Read
import proofs.«116488_j24730421691110_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the eleven arguments both programs end with the same result array: the kernel's is the
    row function applied row by row (KernelArray's run), the reference's is its composed term, which is that same array
    (Bridge) once the arguments' agreement is rewritten. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v59_eq, a0, a1, a2, a3, a4, a5, a6, a7, a8, a9, a10]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
